-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩

abbrev nBuf : Space → Nat
  | .hbm => 92
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Fold.lean ====
/-
  THE KERNEL PROGRAM'S RESULT IS THE REFERENCE'S TERM, GIVEN THE TWO PRODUCTS. The kernel program is the reference's list of host
  operations with each `dot_general` replaced by a pallas_call. Its run ends with every buffer at a fold: host operations applied in
  order from the launch memory, and at each pallas_call the call's result array replaced by what the pipeline leaves there while
  every other buffer keeps what it held (an input window's array is only read). If what each call leaves in its result array is
  the host's product of the two arrays it reads (`h4`, `h7`), then a pallas_call acts on the fold exactly as the reference's
  `dot_general` operation does, and reading the fold at the result buffer, operation by operation back to the arguments, gives the
  reference's composed term of the arguments. That holds at every float family; only the two hypotheses need the extended reals.
-/
import proofs.«424552_j20040317403628_4_alg».proof.Proof.Gen.KernelIdeal.Frame
import proofs.«424552_j20040317403628_4_alg».proof.Proof.RefRun
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen

variable {F : FTy → Type} [FloatOps F]
variable (m : (ℓ : Loc nD τ sig) → Buf (Elt F) ℓ) (ρ : Dev nD → PrngReg)

/-- The whole product of node features and a weight matrix, as the host spells it, at any float family. -/
abbrev hostProd (X : FVec F S100000x128 .f32) (W : FVec F S128x128 .f32) : FVec F S100000x128 .f32 :=
  Host.dotGeneral (F := F) (DotDims.plain 100000 128 128) none X W

/-- The first call writes only its result array: every other buffer leaves the region as it entered it (an input window's
    array is read, never written back). -/
theorem W4_other (c : Dev nD) (r : Ref sig .tc) (h : r ≠ main_v32) :
    W4 m ρ c (Proc.devRef .tc r) = W3 m ρ c (Proc.devRef .tc r) := by
  by_cases h0 : r = main_arg0
  · subst h0
    exact (W4_arr m ρ c 0).trans (((dat0 (V3 m ρ) c).arrAt_in 0 rfl _).trans (A_eq0 (V3 m ρ) c 0))
  by_cases h2 : r = main_arg2
  · subst h2
    exact (W4_arr m ρ c 1).trans (((dat0 (V3 m ρ) c).arrAt_in 1 rfl _).trans (A_eq0 (V3 m ρ) c 1))
  refine W4_of_ne m ρ c r fun w => ?_
  match w with
  | ⟨0, _⟩ => exact fun e => h0 e.symm
  | ⟨1, _⟩ => exact fun e => h2 e.symm
  | ⟨2, _⟩ => exact fun e => h e.symm

/-- The same of the second call. -/
theorem W7_other (c : Dev nD) (r : Ref sig .tc) (h : r ≠ main_v50) :
    W7 m ρ c (Proc.devRef .tc r) = W6 m ρ c (Proc.devRef .tc r) := by
  by_cases h0 : r = main_v49
  · subst h0
    exact (W7_arr m ρ c 0).trans (((dat1 (V6 m ρ) c).arrAt_in 0 rfl _).trans (A_eq1 (V6 m ρ) c 0))
  by_cases h2 : r = main_arg4
  · subst h2
    exact (W7_arr m ρ c 1).trans (((dat1 (V6 m ρ) c).arrAt_in 1 rfl _).trans (A_eq1 (V6 m ρ) c 1))
  refine W7_of_ne m ρ c r fun w => ?_
  match w with
  | ⟨0, _⟩ => exact fun e => h0 e.symm
  | ⟨1, _⟩ => exact fun e => h2 e.symm
  | ⟨2, _⟩ => exact fun e => h e.symm

/-- The two facts above in the form one simplification pass uses: the reference un-indexed, the entry contents spelt as
    the fold of host operations they are. -/
theorem W4_other' (c : Dev nD) {r : Ref sig .tc} (h : r ≠ main_v32) :
    W4 m ρ c (no_index (Proc.devRef .tc r))
      = StableHlo.after hostOps0_2 (StableHlo.after hostOps0_1 (StableHlo.after hostOps0 (W0 m ρ c))) (Proc.devRef .tc r) :=
  W4_other m ρ c r h
theorem W7_other' (c : Dev nD) {r : Ref sig .tc} (h : r ≠ main_v50) :
    W7 m ρ c (no_index (Proc.devRef .tc r))
      = StableHlo.after hostOps1_1 (StableHlo.after hostOps1 (W4 m ρ c)) (Proc.devRef .tc r) :=
  W7_other m ρ c r h

set_option maxHeartbeats 40000000 in
/-- Reading the fold at the result buffer: each host operation's result is its function of its operands' buffers, a buffer an
    operation does not write keeps its contents, each call's result array is the product of its operands' arrays (`h4`, `h7`) and
    its other buffers are as entered; what is left is the reference's term over arguments that agree. -/
theorem result_eq (c : Dev nD)
    (m' : (ℓ : Loc Cert.ReferenceIdeal.nD Cert.ReferenceIdeal.τ Cert.ReferenceIdeal.sig) → Buf (Elt F) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (h4 : W4 m ρ c (Proc.devRef .tc main_v32)
      = hostProd (StableHlo.after hostOps0_2 (StableHlo.after hostOps0_1 (StableHlo.after hostOps0 (W0 m ρ c))) (Proc.devRef .tc main_arg0))
          (StableHlo.after hostOps0_2 (StableHlo.after hostOps0_1 (StableHlo.after hostOps0 (W0 m ρ c))) (Proc.devRef .tc main_arg2)))
    (h7 : W7 m ρ c (Proc.devRef .tc main_v50)
      = hostProd (StableHlo.after hostOps1_1 (StableHlo.after hostOps1 (W4 m ρ c)) (Proc.devRef .tc main_v49))
          (StableHlo.after hostOps1_1 (StableHlo.after hostOps1 (W4 m ρ c)) (Proc.devRef .tc main_arg4))) :
    W8 m ρ c (Proc.devRef .tc main_v66) = Cert.ReferenceIdeal.ValueP.res_main_v66 m' c := by
  obtain ⟨a0, a1, a2, a3, a4, a5⟩ := hagree
  unfold Cert.ReferenceIdeal.ValueP.res_main_v66
  rw [a0, a1, a2, a3, a4, a5]
  show StableHlo.after hostOps2 (W7 m ρ c) (Proc.devRef .tc main_v66) = _
  simp (disch := decide) only [hostOps0, hostOps0_1, hostOps0_2, hostOps1, hostOps1_1, hostOps2, after_cons, after_nil,
      nullary_result', unary_result', binary_result', ternary_result', quaternary_result', reshape_result',
      nullary_result_ne', unary_result_ne', binary_result_ne', ternary_result_ne', quaternary_result_ne', reshape_result_ne',
      h7, W7_other' m ρ c, h4, W4_other' m ρ c]
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl

end Cert.KernelIdeal.Fold

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibPlainDotRows.lean ====
/-
  A ROW BLOCK OF A PLAIN MATRIX PRODUCT IS THE PRODUCT'S ROWS, over the extended reals.

  For `[M, K] × [K, N] → [M, N]` (`DotDims.plain M K N`) the host's `dot_general` at row `r` and column `j` is the sum over
  `k` of `X[r, k] · W[k, j]` (`dotGeneral_apply`). A kernel that multiplies a block of `Mb` rows of `X` by the whole of `W`,
  accumulating into zero, computes at the block's row `p` the same sum as the whole product at the row of `X` that row `p` of the
  block is (`matmul_zero_rows_eq_dotGeneral`): every term of the two sums is the same product, so nothing of extended-real
  arithmetic beyond `0 + s = s` is used and the fact holds at the infinities too.
-/
import Idealize.ShloMosaic.PureOps.Ideal.Laws
import Idealize.ShloMosaic.Lib.ValueIdx
import Idealize.ShloMosaic.Lib.KernelVsHost
import proofs.«424552_j20040317403628_4_alg».proof.Proof.LibPlainDot

noncomputable section

open scoped BigOperators

namespace Idealize.ShloMosaic.PlainDot

open Idealize.ShloMosaic Idealize.ShloMosaic.ValueIdx

/-- THE HOST'S PRODUCT AT `(r, j)`: `∑ₖ X[r, k] · W[k, j]` (stated over `Host.dotGeneral`, the name a printed reference applies). -/
theorem dotGeneral_apply (M K N : Nat) {φ₁ φ₂ : FTy} (prec : Option ContractPrecision)
    (X : FVec Ideal (⟨2, ![M, K]⟩ : Shape) φ₁) (W : FVec Ideal (⟨2, ![K, N]⟩ : Shape) φ₂) (r : Fin M) (j : Fin N) :
    Host.dotGeneral (F := Ideal) (DotDims.plain M K N) prec X W (ix2 r j) = ∑ k : Fin K, X (ix2 r k) * W (ix2 k j) := by
  rw [← matmul_zero_eq_dotGeneral]
  exact matmul_zero_apply M K N prec X W r j

/-- A BLOCK OF ROWS: if row `p` of the block `Xb` is row `r` of `X` (`hrow`) and the block's right operand is `W` entry by entry
    (`hw`), the block's product accumulated into zero, at `(p, j)`, is the whole product at `(r, j)`. -/
theorem matmul_zero_rows_eq_dotGeneral (Mb M K N : Nat) {φ₁ φ₂ : FTy} (prec : Option ContractPrecision)
    (Xb : FVec Ideal (⟨2, ![Mb, K]⟩ : Shape) φ₁) (Wb : FVec Ideal (⟨2, ![K, N]⟩ : Shape) φ₂)
    (X : FVec Ideal (⟨2, ![M, K]⟩ : Shape) φ₁) (W : FVec Ideal (⟨2, ![K, N]⟩ : Shape) φ₂)
    (p : Fin Mb) (r : Fin M) (j : Fin N)
    (hrow : ∀ k : Fin K, Xb (ix2 p k) = X (ix2 r k)) (hw : ∀ k : Fin K, Wb (ix2 k j) = W (ix2 k j)) :
    matmul (F := Ideal) (DotDims.plain Mb K N) prec Xb Wb (constant (⟨2, ![Mb, N]⟩ : Shape) .f32 0x00000000#32) (ix2 p j)
      = Host.dotGeneral (F := Ideal) (DotDims.plain M K N) prec X W (ix2 r j) := by
  rw [matmul_zero_apply, dotGeneral_apply]
  exact Finset.sum_congr rfl fun k _ => by rw [hrow k, hw k]

end Idealize.ShloMosaic.PlainDot

end
-- ==== Proof.Region0.lean ====
/-
  THE FIRST MATRIX PRODUCT AS ONE ARRAY. The first pallas_call multiplies the node features `X` ([100000, 128]) by a weight
  matrix `W` ([128, 128]) fifty rows-blocks at a time: grid point `t` loads rows `2000·t … 2000·t + 1999` of `X` and the whole of
  `W`, and writes their product, accumulated into zero, to the same rows of the result. Row `p` of block `t` is row `2000·t + p`
  of `X`, so entry `(p, j)` of what point `t` writes is `∑ₖ X[2000·t + p, k] · W[k, j]`: entry `(2000·t + p, j)` of the host's
  `dot_general` of `X` and `W`. The fifty blocks tile the rows, so the array ends holding that product.
-/
import proofs.«424552_j20040317403628_4_alg».proof.Proof.Gen.KernelIdeal.Frame
import proofs.«424552_j20040317403628_4_alg».proof.Proof.LibPlainDotRows
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Product

open Cert.KernelIdeal Cert.KernelIdeal.Gen

/-- The whole product the two pallas_calls compute, as the host spells it. -/
abbrev prod (X : FVec Ideal S100000x128 .f32) (W : FVec Ideal S128x128 .f32) : FVec Ideal S100000x128 .f32 :=
  Host.dotGeneral (F := Ideal) (DotDims.plain 100000 128 128) none X W

theorem hz : (![0, 0] : Fin 2 → Nat) = fun _ => 0 := funext fun a => by fin_cases a <;> rfl

/-- The kernel's dimension numbers are the plain product's. -/
theorem dot_eq_plain : dot_S2000x128_S128x128_S2000x128_1_0_0_1_n_n = DotDims.plain 2000 128 128 := rfl

/-- One point's arithmetic: the product of a block of rows with `W`, entry by entry, is the whole product's entry at the row of
    `X` the block's row is. -/
theorem point_eq (Xb : FVec Ideal S2000x128 .f32) (Wb : FVec Ideal S128x128 .f32)
    (X : FVec Ideal S100000x128 .f32) (W : FVec Ideal S128x128 .f32) (y : S2000x128.Idx) (i : S100000x128.Idx)
    (hrow : ∀ k : Fin 128, Xb (ix2 (y 0) k) = X (ix2 (i 0) k)) (hw : ∀ k : Fin 128, Wb (ix2 k (y 1)) = W (ix2 k (y 1)))
    (hcol : i 1 = y 1) :
    matmul (F := Ideal) dot_S2000x128_S128x128_S2000x128_1_0_0_1_n_n none Xb Wb (constant S2000x128 .f32 0x00000000#32) y = prod X W i :=
  calc matmul (F := Ideal) dot_S2000x128_S128x128_S2000x128_1_0_0_1_n_n none Xb Wb (constant S2000x128 .f32 0x00000000#32) y
    _ = matmul (F := Ideal) (DotDims.plain 2000 128 128) none Xb Wb (constant S2000x128 .f32 0x00000000#32) (ix2 (y 0) (y 1)) :=
        congrArg (matmul (F := Ideal) (DotDims.plain 2000 128 128) none Xb Wb (constant S2000x128 .f32 0x00000000#32)) (eq_ix2 y)
    _ = prod X W (ix2 (i 0) (y 1)) :=
        PlainDot.matmul_zero_rows_eq_dotGeneral 2000 100000 128 128 none Xb Wb X W (y 0) (i 0) (y 1) hrow hw
    _ = prod X W i := congrArg (prod X W) (by rw [← hcol]; exact (eq_ix2 i).symm)

variable (V : (c : Dev nD) → (b : Ref sig .tc) → Buf (Elt Ideal) ((c : Thread nD τ).loc b))

/-- The printed index maps over the grid: the two row-blocked windows are at block `t` of the rows at point `t`, the weights at
    their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the arrays the region finds. -/
theorem flushed0_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts0 t
  funext y
  show k0_pay1 (iblk0 V c 0 t) (iblk0 V c 1 t) y = prod (V c main_arg0) (V c main_arg2) (((cfg0.win 2).blk t).view.emb y)
  refine point_eq (iblk0 V c 0 t) (iblk0 V c 1 t) (V c main_arg0) (V c main_arg2) y _ ?_ ?_ ?_
  · intro k
    unfold iblk0
    rw [View.read_apply]
    show V c main_arg0 (((cfg0.win 0).blk t).view.emb (ix2 (y 0) k)) = V c main_arg0 (ix2 (((cfg0.win 2).blk t).view.emb y 0) k)
    refine congrArg (V c main_arg0) (funext fun a => Fin.ext ?_)
    match a with
    | ⟨0, _⟩ => show win0_0.index t (0 : Fin 2) * 2000 + 1 * (y 0).val = win0_2.index t (0 : Fin 2) * 2000 + 1 * (y 0).val; rw [e0, e4]
    | ⟨1, _⟩ => show win0_0.index t (1 : Fin 2) * 128 + 1 * k.val = k.val; rw [e1]; omega
  · intro k
    unfold iblk0
    rw [View.read_apply]
    show V c main_arg2 (((cfg0.win 1).blk t).view.emb (ix2 k (y 1))) = V c main_arg2 (ix2 k (y 1))
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (y 1).val = (y 1).val; rw [e3]; omega
  · refine Fin.ext ?_
    show win0_2.index t (1 : Fin 2) * 128 + 1 * (y 1).val = (y 1).val
    rw [e5]; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row is in the block of the point its row number divided by 2000 names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [mem_blk0]
  obtain ⟨-, -, -, -, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- THE RESULT ARRAY of the first pallas_call after its run: the product of the arrays the region finds. -/
theorem final0 (c : Dev nD) : (dat0 V c).arrAt 2 cfg0.N = prod (V c main_arg0) (V c main_arg2) :=
  (dat0 V c).arrAt_eq_of_cover 2 (prod (V c main_arg0) (V c main_arg2)) (fun t _ => flushed0_eq V c t) cover0

end Cert.KernelIdeal.Product

end
-- ==== Proof.Region1.lean ====
/-
  THE SECOND MATRIX PRODUCT AS ONE ARRAY. The second pallas_call multiplies the hidden features `H` ([100000, 128], what the host
  operations between the two calls leave) by the second weight matrix, in the same fifty blocks of 2000 rows as the first. Its body
  reshapes the loaded block to its own shape before the product, which changes nothing; the rest is the first call's argument at the
  second call's windows: entry `(p, j)` of what point `t` writes is entry `(2000·t + p, j)` of the host's `dot_general` of `H` and the
  weights, and the fifty blocks tile the rows.
-/
import proofs.«424552_j20040317403628_4_alg».proof.Proof.Region0

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Product

open Cert.KernelIdeal Cert.KernelIdeal.Gen

variable (V : (c : Dev nD) → (b : Ref sig .tc) → Buf (Elt Ideal) ((c : Thread nD τ).loc b))

/-- The printed index maps of the second call over its grid: as the first call's. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` of the second call WRITES BACK is block `t` of the product of the arrays the region finds. -/
theorem flushed1_eq (c : Dev nD) (t : Fin cfg1.N) :
    (dat1 V c).flushed 2 t = ((cfg1.win 2).blk t).view.read (Elt Ideal) (prod (V c main_v49) (V c main_arg4)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts1 t
  funext y
  show k1_pay1 (iblk1 V c 0 t) (iblk1 V c 1 t) y = prod (V c main_v49) (V c main_arg4) (((cfg1.win 2).blk t).view.emb y)
  refine point_eq (shapeCast S2000x128 (iblk1 V c 0 t) shapeCasts_S2000x128_S2000x128) (iblk1 V c 1 t) (V c main_v49) (V c main_arg4) y _ ?_ ?_ ?_
  · intro k
    refine (congrFun (shapeCast_self (s := S2000x128) (iblk1 V c 0 t) shapeCasts_S2000x128_S2000x128) (ix2 (y 0) k)).trans ?_
    unfold iblk1
    rw [View.read_apply]
    show V c main_v49 (((cfg1.win 0).blk t).view.emb (ix2 (y 0) k)) = V c main_v49 (ix2 (((cfg1.win 2).blk t).view.emb y 0) k)
    refine congrArg (V c main_v49) (funext fun a => Fin.ext ?_)
    match a with
    | ⟨0, _⟩ => show win1_0.index t (0 : Fin 2) * 2000 + 1 * (y 0).val = win1_2.index t (0 : Fin 2) * 2000 + 1 * (y 0).val; rw [e0, e4]
    | ⟨1, _⟩ => show win1_0.index t (1 : Fin 2) * 128 + 1 * k.val = k.val; rw [e1]; omega
  · intro k
    unfold iblk1
    rw [View.read_apply]
    show V c main_arg4 (((cfg1.win 1).blk t).view.emb (ix2 k (y 1))) = V c main_arg4 (ix2 k (y 1))
    refine congrArg (V c main_arg4) (funext fun a => Fin.ext ?_)
    match a with
    | ⟨0, _⟩ => show win1_1.index t (0 : Fin 2) * 128 + 1 * k.val = k.val; rw [e2]; omega
    | ⟨1, _⟩ => show win1_1.index t (1 : Fin 2) * 128 + 1 * (y 1).val = (y 1).val; rw [e3]; omega
  · refine Fin.ext ?_
    show win1_2.index t (1 : Fin 2) * 128 + 1 * (y 1).val = (y 1).val
    rw [e5]; omega

/-- An index of the second result array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- Every row is in the block of the point its row number divided by 2000 names. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_2 _, ?_⟩
  rw [mem_blk1]
  obtain ⟨-, -, -, -, e4, e5⟩ := idx_facts1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e5]; omega

/-- THE RESULT ARRAY of the second pallas_call after its run: the product of the arrays the region finds. -/
theorem final1 (c : Dev nD) : (dat1 V c).arrAt 2 cfg1.N = prod (V c main_v49) (V c main_arg4) :=
  (dat1 V c).arrAt_eq_of_cover 2 (prod (V c main_v49) (V c main_arg4)) (fun t _ => flushed1_eq V c t) cover1

end Cert.KernelIdeal.Product

end
-- ==== Proof.ResultIdeal.lean ====
/-
  AT THE EXTENDED REALS THE KERNEL PROGRAM'S RESULT IS THE REFERENCE'S TERM. The fold of host operations and regions the kernel
  program's run ends with (`Gen.W8` at the result buffer) is the reference's composed term once each pallas_call's result array is
  the host's product of the arrays it finds; at the extended reals it is: the fifty row blocks of each call tile the rows, and a
  block's product accumulated into zero is the whole product's rows (term by term the same sum).
-/
import proofs.«424552_j20040317403628_4_alg».proof.Proof.Fold
import proofs.«424552_j20040317403628_4_alg».proof.Proof.Region0
import proofs.«424552_j20040317403628_4_alg».proof.Proof.Region1

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen

variable (m : (ℓ : Loc nD τ sig) → Buf (Elt Ideal) ℓ) (ρ : Dev nD → PrngReg)

/-- The first call's result array, where the run's fold reads it, is the host's product of the node features and the first
    weights as the region finds them. -/
theorem W4_product (c : Dev nD) :
    W4 m ρ c (Proc.devRef .tc main_v32)
      = hostProd (F := Ideal) (StableHlo.after hostOps0_2 (StableHlo.after hostOps0_1 (StableHlo.after hostOps0 (W0 m ρ c))) (Proc.devRef .tc main_arg0))
          (StableHlo.after hostOps0_2 (StableHlo.after hostOps0_1 (StableHlo.after hostOps0 (W0 m ρ c))) (Proc.devRef .tc main_arg2)) :=
  (W4_arr m ρ c 2).trans (Product.final0 (V3 m ρ) c)

/-- The second call's result array is the host's product of the hidden features and the second weights as the region finds them. -/
theorem W7_product (c : Dev nD) :
    W7 m ρ c (Proc.devRef .tc main_v50)
      = hostProd (F := Ideal) (StableHlo.after hostOps1_1 (StableHlo.after hostOps1 (W4 m ρ c)) (Proc.devRef .tc main_v49))
          (StableHlo.after hostOps1_1 (StableHlo.after hostOps1 (W4 m ρ c)) (Proc.devRef .tc main_arg4)) :=
  (W7_arr m ρ c 2).trans (Product.final1 (V6 m ρ) c)

/-- THE RESULT: what the kernel program leaves in its result buffer is the reference's composed term of arguments that agree. -/
theorem result_ideal (c : Dev nD)
    (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    W8 m ρ c (Proc.devRef .tc main_v66) = Cert.ReferenceIdeal.ValueP.res_main_v66 m' c :=
  result_eq m ρ c m' hagree (W4_product m ρ c) (W7_product m ρ c)

end Cert.KernelIdeal.Fold

end
-- ==== Proof.lean ====
/-
  A two-layer graph convolution: each layer multiplies the node features by a weight matrix, gathers the product's rows along the
  edges (self loops added), scales each by the symmetric degree normalisation, adds them up per target node and adds a bias; a relu
  sits between the layers. The kernel program computes the two matrix products in a Pallas kernel, fifty blocks of 2000 rows at a
  time, and everything else with the host operations the reference uses, operation for operation. So the two programs differ only in
  how `X · W` is computed, and over the extended reals a block's product accumulated into zero is the whole product's rows: the same
  sum of the same products, term by term, so no law of arithmetic beyond `0 + s = s` is used and the precondition is never opened.

  The modules: `Region0`, `Region1` — each pallas_call's result array is the host's product of the arrays it finds (over
  `LibPlainDot`, `LibPlainDotRows`: a plain product read at an index); `Fold` — the kernel program's fold of host operations and
  regions, read at the result buffer, is the reference's composed term given those two products; `ResultIdeal` — the two together at
  the extended reals; `KernelRun` — the kernel program's run with its result buffer in the post; `RefRun` — the reference's run.
-/
import proofs.«424552_j20040317403628_4_alg».proof.Defs
import proofs.«424552_j20040317403628_4_alg».proof.Proof.Gen.Kernel
import proofs.«424552_j20040317403628_4_alg».proof.Proof.Gen.Kernel.Frame
import proofs.«424552_j20040317403628_4_alg».proof.Proof.Gen.KernelIdeal
import proofs.«424552_j20040317403628_4_alg».proof.Proof.Gen.KernelIdeal.Frame
import proofs.«424552_j20040317403628_4_alg».proof.Proof.Gen.ReferenceIdeal
import proofs.«424552_j20040317403628_4_alg».proof.Proof.Gen.Pre_finite_inputs
import proofs.«424552_j20040317403628_4_alg».proof.Proof.KernelRun
import proofs.«424552_j20040317403628_4_alg».proof.Proof.RefRun
import proofs.«424552_j20040317403628_4_alg».proof.Proof.ResultIdeal
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Over the extended reals the two programs, from memories that agree on the arguments, end with the same result: the kernel
    program's fold of host operations and regions at the result buffer is the reference's composed term. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.Fold.result_ideal m ρ c m' (hagree c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
